-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S4096x4x2048 : Shape := ⟨3, ![4096, 4, 2048]⟩
abbrev S2048 : Shape := ⟨1, ![2048]⟩
abbrev S16384 : Shape := ⟨1, ![16384]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4096x4x2048 : S_.BroadcastsInDim S4096x4x2048 (![] : Fin 0 → Fin S4096x4x2048.rank)
  reducesTo_S4096x4x2048_S_d0_1_2 : S4096x4x2048.ReducesTo [0, 1, 2] S_

variable [Facts]

def fn {F : FTy → Type} [FloatOps F] (main_arg0 : FVec F S2048x2048 .f32) (main_arg1 : FVec F S4096x4x2048 .f32) (main_arg2 : IVec S2048 32) (main_arg3 : IVec S16384 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S4096x4x2048 .f32 := Host.absf main_arg1
  let main_cst_0 : FVec F S_ .f32 := constant S_ .f32 0x7F800000#32
  let main_v5 : FVec F S4096x4x2048 .f32 := broadcastInDim S4096x4x2048 ![] bcast_S_S4096x4x2048 main_cst_0
  let main_v6 : IVec S4096x4x2048 1 := cmpf .olt main_v4 main_v5
  let main_c_1 : IVec S_ 1 := constantI S_ 1 1#1
  let main_v7 : IVec S_ 1 := (fun x v => Host.reduce IntOp.andi x v reducesTo_S4096x4x2048_S_d0_1_2 h_S_) main_v6 main_c_1
  let main_v8 : IVec S_ 1 := andi main_v3 main_v7
  main_v8
-- ==== Kernel.lean ====
abbrev S2048x2048 : Shape := ⟨2, ![2048, 2048]⟩
abbrev S4096x4x2048 : Shape := ⟨3, ![4096, 4, 2048]⟩
abbrev S2048 : Shape := ⟨1, ![2048]⟩
abbrev S16384 : Shape := ⟨1, ![16384]⟩
abbrev S16384x2048 : Shape := ⟨2, ![16384, 2048]⟩
abbrev S2048x1 : Shape := ⟨2, ![2048, 1]⟩
abbrev S1x16384 : Shape := ⟨2, ![1, 16384]⟩
abbrev S512x2048 : Shape := ⟨2, ![512, 2048]⟩
abbrev S1024x2048 : Shape := ⟨2, ![1024, 2048]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S_ : Shape := ⟨0, ![]⟩

abbrev nBuf : Space → Nat
  | .hbm => 14
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S4096x4x2048, .f32⟩
  | .hbm, ⟨2, _⟩ => ⟨S2048, .i32⟩
  | .hbm, ⟨3, _⟩ => ⟨S16384, .i32⟩
  | .hbm, ⟨4, _⟩ => ⟨S2048x2048, .bf16⟩
  | .hbm, ⟨5, _⟩ => ⟨S16384x2048, .f32⟩
  | .hbm, ⟨6, _⟩ => ⟨S16384x2048, .bf16⟩
  | .hbm, ⟨7, _⟩ => ⟨S2048x1, .i32⟩
  | .hbm, ⟨8, _⟩ => ⟨S1x16384, .i32⟩
  | .hbm, ⟨9, _⟩ => ⟨S2048x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S4096x4x2048_S16384x2048 : S4096x4x2048.ShapeCasts S16384x2048
  shapeCasts_S2048_S2048x1 : S2048.ShapeCasts S2048x1
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  reducesTo_S2048x1_S_d0_1 : S2048x1.ReducesTo [0, 1] S_
  h_S_ : 0 < S_.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .bf16 = 32 ∨ (Rect.block (s := S16384x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .i32 = 32 ∨ (Rect.block (s := S2048x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .i32 = 32 ∨ (Rect.block (s := S1x16384) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x2048 : Shape := ⟨2, ![2048, 2048]⟩
abbrev S4096x4x2048 : Shape := ⟨3, ![4096, 4, 2048]⟩
abbrev S2048 : Shape := ⟨1, ![2048]⟩
abbrev S16384 : Shape := ⟨1, ![16384]⟩
abbrev S16384x2048 : Shape := ⟨2, ![16384, 2048]⟩
abbrev S2048x16384 : Shape := ⟨2, ![2048, 16384]⟩
abbrev S_ : Shape := ⟨0, ![]⟩
abbrev S2048x1 : Shape := ⟨2, ![2048, 1]⟩
abbrev S1x16384 : Shape := ⟨2, ![1, 16384]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x4x2048, .f32⟩
  | .hbm, ⟨2, _⟩ => ⟨S2048, .i32⟩
  | .hbm, ⟨3, _⟩ => ⟨S16384, .i32⟩
  | .hbm, ⟨4, _⟩ => ⟨S16384x2048, .f32⟩
  | .hbm, ⟨5, _⟩ => ⟨S2048x16384, .f32⟩
  | .hbm, ⟨6, _⟩ => ⟨S_, .f32⟩
  | .hbm, ⟨7, _⟩ => ⟨S2048x16384, .f32⟩
  | .hbm, ⟨8, _⟩ => ⟨S2048x16384, .f32⟩
  | .hbm, ⟨9, _⟩ => ⟨S2048x16384, .f32⟩
  | .hbm, ⟨10, _⟩ => ⟨S2048x1, .i32⟩
  | .hbm, ⟨11, _⟩ => ⟨S1x16384, .i32⟩
  | .hbm, ⟨12, _⟩ => ⟨S2048x16384, .i32⟩
  | .hbm, ⟨13, _⟩ => ⟨S2048x16384, .i32⟩
  | .hbm, ⟨14, _⟩ => ⟨S2048x16384, .i1⟩
  | .hbm, ⟨15, _⟩ => ⟨S_, .f32⟩
  | .hbm, ⟨16, _⟩ => ⟨S_, .f32⟩
  | .hbm, ⟨17, _⟩ => ⟨S2048x16384, .f32⟩
  | .hbm, ⟨18, _⟩ => ⟨S2048x16384, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S2048x16384, .f32⟩
  | .hbm, ⟨24, _⟩ => ⟨S2048x16384, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  shapeCasts_S4096x4x2048_S16384x2048 : S4096x4x2048.ShapeCasts S16384x2048
  bcast_S_S2048x16384 : S_.BroadcastsInDim S2048x16384 (![] : Fin 0 → Fin S2048x16384.rank)
  bcast_S2048_S2048x1_0 : S2048.BroadcastsInDim S2048x1 (![0] : Fin 1 → Fin S2048x1.rank)
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  reducesTo_S2048x16384_S2048_d1 : S2048x16384.ReducesTo [1] S2048
  h_S_ : 0 < S_.numel
  bcast_S_S2048 : S_.BroadcastsInDim S2048 (![] : Fin 0 → Fin S2048.rank)
  reducesTo_S2048_S_d0 : S2048.ReducesTo [0] S_
  dot_S2048x2048_S16384x2048_S2048x16384_1_1_0_0_n_n_wf : DotDims.WF S2048x2048 S16384x2048 S2048x16384 [1] [1] [0] [0] [] []

variable [Facts₀]

def dot_S2048x2048_S16384x2048_S2048x16384_1_1_0_0_n_n : DotDims S2048x2048 S16384x2048 S2048x16384 where
  lhsContracting := [1]
  rhsContracting := [1]
  lhsNonContracting := [0]
  rhsNonContracting := [0]
  lhsBatch := []
  rhsBatch := []
  wf := dot_S2048x2048_S16384x2048_S2048x16384_1_1_0_0_n_n_wf

class Facts : Prop extends Facts₀ where

variable [Facts]
-- ==== Proof.LossSpec.lean ====
/-
  The row-masked contrastive loss both programs compute, written once over plain coordinates.

  For 2048 query rows x_b and 16384 support rows y_n (2048 features each), integer labels l_b and s_n,
  and an inverse temperature κ:

    e(b, n)  = exp (⟨x_b, y_n⟩ · κ)
    pm(b)    = min over n of (e(b, n) where l_b = s_n, +∞ elsewhere)        (the hardest positive)
    ns(b)    = 0 + Σ over n of (0 where l_b = s_n, e(b, n) elsewhere)         (the negatives' mass)
    loss(b)  = −log (pm(b) / (pm(b) + ns(b) + ε) + ε)
    result   = (0 + Σ_b loss(b)) / 2048

  all on the extended reals. The float words +∞, 0, ε and 2048 are kept as the words both programs spell.
-/
import Idealize.ShloMosaic.PureOps.Ideal
import Idealize.ShloMosaic.Lib.ValueIdx

noncomputable section

open scoped BigOperators

namespace Cert.Loss

open Idealize.ShloMosaic Idealize.ShloMosaic.ValueIdx

/-- The word +∞: the masked-out value under the minimum and the minimum's starting value. -/
abbrev infW : EReal := Ideal.ofBits .f32 0x7F800000#32
/-- The word 0.0: the masked-out value under the sum and both sums' starting value. -/
abbrev zeroW : EReal := Ideal.ofBits .f32 0x00000000#32
/-- The word 1e-6 (as f32), added to the denominator and to the quotient. -/
abbrev epsW : EReal := Ideal.ofBits .f32 0x358637BD#32
/-- The word 2048.0, the number of query rows the mean divides by. -/
abbrev rowsW : EReal := Ideal.ofBits .f32 0x45000000#32

/-- The inner product of query row b and support row n (any numbers of rows: the whole arrays, or one block of each). -/
def sim {nb nn : ℕ} (X : Fin nb → Fin 2048 → EReal) (Y : Fin nn → Fin 2048 → EReal) (b : Fin nb) (n : Fin nn) : EReal :=
  ∑ c : Fin 2048, X b c * Y n c

/-- The exponentiated similarity at inverse temperature κ. -/
def esim {nb nn : ℕ} (κ : EReal) (X : Fin nb → Fin 2048 → EReal) (Y : Fin nn → Fin 2048 → EReal) (b : Fin nb) (n : Fin nn) : EReal :=
  Ideal.exp (sim X Y b n * κ)

/-- What pair (b, n) contributes to row b's minimum: its value if the labels agree, +∞ if not. -/
def posTerm {nb nn : ℕ} (E : Fin nb → Fin nn → EReal) (lab : Fin nb → BitVec 32) (labs : Fin nn → BitVec 32)
    (b : Fin nb) (n : Fin nn) : EReal :=
  Scalar.select (IntOp.cmpi .eq (lab b) (labs n)) (E b n) infW

/-- What pair (b, n) contributes to row b's sum: 0 if the labels agree, its value if not. -/
def negTerm {nb nn : ℕ} (E : Fin nb → Fin nn → EReal) (lab : Fin nb → BitVec 32) (labs : Fin nn → BitVec 32)
    (b : Fin nb) (n : Fin nn) : EReal :=
  Scalar.select (IntOp.cmpi .eq (lab b) (labs n)) zeroW (E b n)

/-- The least of a row's 16384 terms, from +∞. -/
def rowMin (f : Fin 16384 → EReal) : EReal := Finset.univ.fold min infW f

/-- The sum of a row's 16384 terms, from 0. -/
def rowSum (f : Fin 16384 → EReal) : EReal := zeroW + ∑ n : Fin 16384, f n

/-- One row's loss from its hardest positive pm and its negatives' mass ns. -/
def rowLoss (pm ns : EReal) : EReal := -(Ideal.log (Ideal.div pm (pm + ns + epsW) + epsW))

/-- The mean over the 2048 rows, as both programs take it: the sum from 0, divided by the word 2048. -/
def meanRows (f : Fin 2048 → EReal) : EReal := Ideal.div (zeroW + ∑ b : Fin 2048, f b) rowsW

/-- Row b's loss as a function of the four inputs read by coordinates. -/
def lossRow (κ : EReal) (X : Fin 2048 → Fin 2048 → EReal) (Y : Fin 16384 → Fin 2048 → EReal)
    (lab : Fin 2048 → BitVec 32) (labs : Fin 16384 → BitVec 32) (b : Fin 2048) : EReal :=
  rowLoss (rowMin (posTerm (esim κ X Y) lab labs b)) (rowSum (negTerm (esim κ X Y) lab labs b))

/-- The whole result. -/
def total (κ : EReal) (X : Fin 2048 → Fin 2048 → EReal) (Y : Fin 16384 → Fin 2048 → EReal)
    (lab : Fin 2048 → BitVec 32) (labs : Fin 16384 → BitVec 32) : EReal :=
  meanRows (lossRow κ X Y lab labs)

/-! ## The same row quantities taken sixteen column blocks of 1024 at a time

A running minimum and a running sum over the column blocks, each block folded by itself first: the order in which a
blocked evaluation meets the 16384 columns. -/

/-- Column k of column block j (total in j: past the sixteenth block it wraps, which nothing uses). -/
def col (j : ℕ) (k : Fin 1024) : Fin 16384 := ⟨(1024 * j + k.val) % 16384, Nat.mod_lt _ (by decide)⟩

/-- Row r of row block i (total in i likewise). -/
def row (i : ℕ) (r : Fin 512) : Fin 2048 := ⟨(512 * i + r.val) % 2048, Nat.mod_lt _ (by decide)⟩

/-- The running minimum after column block j: block 0's minimum against the start a, then each later block's. -/
def minChain (a : EReal) (f : Fin 16384 → EReal) : ℕ → EReal
  | 0 => min a (Finset.univ.fold min a fun k : Fin 1024 => f (col 0 k))
  | j + 1 => min (minChain a f j) (Finset.univ.fold min a fun k : Fin 1024 => f (col (j + 1) k))

/-- The running sum after column block j: the start z plus block 0's sum, then plus each later block's. -/
def sumChain (z : EReal) (f : Fin 16384 → EReal) : ℕ → EReal
  | 0 => z + ∑ k : Fin 1024, f (col 0 k)
  | j + 1 => sumChain z f j + ∑ k : Fin 1024, f (col (j + 1) k)

/-- The inverse temperature: the exact reciprocal of the f32 word 0.05 the reference divides by. -/
abbrev invTemp : EReal := ((268435456 / 13421773 : ℝ) : EReal)

end Cert.Loss

end
-- ==== Proof.KernelPieces.lean ====
/-
  What each control case of the kernel body leaves in the carried buffers and in the output block, as the body's
  arithmetic of the loaded blocks: the run's stores read back.
-/
import proofs.«181275_j84447646974570_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

/-! ## What each control case leaves behind, as the body's arithmetic of what it loaded

Three cases of a grid point: the first column block of a row block (A: both carried buffers are reset, then
updated), a middle column block (B: both updated), the last column block (C: both updated, and the row block's
losses stored). Each buffer is stored whole, so what a case leaves is the last store's value; a load that follows
a store of the same buffer reads that store's value. -/

/-- Case B, the running minimum: the update of what the point before left. -/
theorem sB0 (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x2048 .bf16) (x1 : Vec F S1024x2048 .bf16) (x2 : Vec F S512x1 .i32) (x3 : Vec F S1x1024 .i32) (xs0 : Vec F S512x1 .f32) (xs1 : Vec F S512x1 .f32) :
    sout0_B_0 c i arg2 harg2 arg3 harg3 arg4 harg4 arg5 harg5 arg6 harg6 arg7 harg7 arg8 harg8 hc0 hc1 x0 x1 x2 x3 xs0 xs1 = k0_pay7 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S1024x2048) hz, View.ld_unit_zero (S := S512x1) hz, View.ld_unit_zero (S := S1x1024) hz]

/-- Case B, the running sum. -/
theorem sB1 (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x2048 .bf16) (x1 : Vec F S1024x2048 .bf16) (x2 : Vec F S512x1 .i32) (x3 : Vec F S1x1024 .i32) (xs0 : Vec F S512x1 .f32) (xs1 : Vec F S512x1 .f32) :
    sout0_B_1 c i arg2 harg2 arg3 harg3 arg4 harg4 arg5 harg5 arg6 harg6 arg7 harg7 arg8 harg8 hc0 hc1 x0 x1 x2 x3 xs0 xs1 = k0_pay1 (k0_pay8 x0 x1 x2 x3 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S1024x2048) hz, View.ld_unit_zero (S := S512x1) hz, View.ld_unit_zero (S := S1x1024) hz]

/-- Case C, the running minimum. -/
theorem sC0 (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x2048 .bf16) (x1 : Vec F S1024x2048 .bf16) (x2 : Vec F S512x1 .i32) (x3 : Vec F S1x1024 .i32) (xs0 : Vec F S512x1 .f32) (xs1 : Vec F S512x1 .f32) :
    sout0_C_0 c i arg2 harg2 arg3 harg3 arg4 harg4 arg5 harg5 arg6 harg6 arg7 harg7 arg8 harg8 hc0 hc1 x0 x1 x2 x3 xs0 xs1 = k0_pay7 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S1024x2048) hz, View.ld_unit_zero (S := S512x1) hz, View.ld_unit_zero (S := S1x1024) hz]

/-- Case C, the running sum. -/
theorem sC1 (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x2048 .bf16) (x1 : Vec F S1024x2048 .bf16) (x2 : Vec F S512x1 .i32) (x3 : Vec F S1x1024 .i32) (xs0 : Vec F S512x1 .f32) (xs1 : Vec F S512x1 .f32) :
    sout0_C_1 c i arg2 harg2 arg3 harg3 arg4 harg4 arg5 harg5 arg6 harg6 arg7 harg7 arg8 harg8 hc0 hc1 x0 x1 x2 x3 xs0 xs1 = k0_pay1 (k0_pay8 x0 x1 x2 x3 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S1024x2048) hz, View.ld_unit_zero (S := S512x1) hz, View.ld_unit_zero (S := S1x1024) hz]

/-- Case C, the output block: the loss of the two carried values just updated. -/
theorem oC4 (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x2048 .bf16) (x1 : Vec F S1024x2048 .bf16) (x2 : Vec F S512x1 .i32) (x3 : Vec F S1x1024 .i32) (xs0 : Vec F S512x1 .f32) (xs1 : Vec F S512x1 .f32) :
    out0_C_4 c i arg2 harg2 arg3 harg3 arg4 harg4 arg5 harg5 arg6 harg6 arg7 harg7 arg8 harg8 hc0 hc1 x0 x1 x2 x3 xs0 xs1 = k0_pay2 (k0_pay7 x0 x1 x2 x3 xs0) (k0_pay1 (k0_pay8 x0 x1 x2 x3 xs1)) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S1024x2048) hz, View.ld_unit_zero (S := S512x1) hz, View.ld_unit_zero (S := S1x1024) hz, View.readCov_unit_zero (S := S512x1) _ hz]

/-- Case A, the running minimum: the update of the reset value. -/
theorem sA0 (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x2048 .bf16) (x1 : Vec F S1024x2048 .bf16) (x2 : Vec F S512x1 .i32) (x3 : Vec F S1x1024 .i32) :
    sout0_A_0 c i arg2 harg2 arg3 harg3 arg4 harg4 arg5 harg5 arg6 harg6 arg7 harg7 arg8 harg8 hc0 hc1 x0 x1 x2 x3 = k0_pay7 x0 x1 x2 x3 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, View.ld_unit_zero (S := S512x2048) hz, View.ld_unit_zero (S := S1024x2048) hz, View.ld_unit_zero (S := S512x1) hz, View.ld_unit_zero (S := S1x1024) hz, View.readCov_unit_zero (S := S512x1) _ hz]

/-- Case A, the running sum. -/
theorem sA1 (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x2048 .bf16) (x1 : Vec F S1024x2048 .bf16) (x2 : Vec F S512x1 .i32) (x3 : Vec F S1x1024 .i32) :
    sout0_A_1 c i arg2 harg2 arg3 harg3 arg4 harg4 arg5 harg5 arg6 harg6 arg7 harg7 arg8 harg8 hc0 hc1 x0 x1 x2 x3 = k0_pay1 (k0_pay8 x0 x1 x2 x3 k0_pay4) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, View.ld_unit_zero (S := S512x2048) hz, View.ld_unit_zero (S := S1024x2048) hz, View.ld_unit_zero (S := S512x1) hz, View.ld_unit_zero (S := S1x1024) hz, View.readCov_unit_zero (S := S512x1) _ hz]

end Cert.KernelIdeal.Pieces

end
-- ==== Proof.KernelBlocks.lean ====
/-
  The blocks of the four operands that a grid point of the kernel sees, by global coordinates.
-/
import proofs.«181275_j84447646974570_1_alg».proof.Proof.Gen.KernelIdeal.Frame
import proofs.«181275_j84447646974570_1_alg».proof.Proof.LossSpec
import Idealize.ShloMosaic.Lib.Pipeline.Value
import Idealize.ShloMosaic.Lib.ValueIdx
import Idealize.ShloMosaic.Lib.ValueLayout
import Idealize.ShloMosaic.Lib.StableHlo.Run

noncomputable section

/-!
  The four input blocks a grid point sees, read by global coordinates. Point t of the 4 × 16 grid is row block
  t / 16 and column block t % 16: it sees query rows 512 (t / 16) + r, support rows 1024 (t % 16) + k, and the
  labels of those rows. The arrays the kernel reads are the arguments after a change of float format (the identity
  on the extended reals) and reshapes that keep the row-major order.
-/

namespace Cert.KernelIdeal.Blocks

open Cert.KernelIdeal Cert.KernelIdeal.Gen Idealize.ShloMosaic Idealize.ShloMosaic.TcCoe Idealize.SL.Sem
open Idealize.ShloMosaic.ValueIdx Cert.Loss

variable (m : (ℓ : Loc nD τ sig) → Buf (Elt Ideal) ℓ)

abbrev Xg (c : Dev nD) : Fin 2048 → Fin 2048 → EReal := fun b cc => m ((c : Thread nD τ).loc main_arg0) (ix2 b cc)
abbrev Yg (c : Dev nD) : Fin 16384 → Fin 2048 → EReal := fun n cc =>
  shapeCast S16384x2048 (m ((c : Thread nD τ).loc main_arg1)) shapeCasts_S4096x4x2048_S16384x2048 (ix2 n cc)
abbrev labg (c : Dev nD) : Fin 2048 → BitVec 32 := fun b => m ((c : Thread nD τ).loc main_arg2) (ix1 b)
abbrev labsg (c : Dev nD) : Fin 16384 → BitVec 32 := fun n => m ((c : Thread nD τ).loc main_arg3) (ix1 n)

theorem V_v0_apply (c : Dev nD) (i : S2048x2048.Idx) :
    (V m c main_v0 : S2048x2048.Idx → EReal) i = m ((c : Thread nD τ).loc main_arg0) i := by
  have e : (V m c main_v0 : S2048x2048.Idx → EReal) = truncf (F := Idealize.ShloMosaic.Ideal) .bf16 (m ((c : Thread nD τ).loc main_arg0)) bitsLt_bf16_f32 := by
    show StableHlo.after hostOps0 (fun b => m (c, b)) (Proc.devRef .tc main_v0) = _
    after_results <;> rfl
  rw [e]; rfl

theorem V_v2_apply (c : Dev nD) (i : S16384x2048.Idx) :
    (V m c main_v2 : S16384x2048.Idx → EReal) i = shapeCast S16384x2048 (m ((c : Thread nD τ).loc main_arg1)) shapeCasts_S4096x4x2048_S16384x2048 i := by
  have e : (V m c main_v2 : S16384x2048.Idx → EReal) = truncf (F := Idealize.ShloMosaic.Ideal) .bf16 (shapeCast S16384x2048 (m ((c : Thread nD τ).loc main_arg1)) shapeCasts_S4096x4x2048_S16384x2048) bitsLt_bf16_f32 := by
    show StableHlo.after hostOps0 (fun b => m (c, b)) (Proc.devRef .tc main_v2) = _
    after_results <;> rfl
  rw [e]; rfl

theorem V_v3_eq (c : Dev nD) :
    (V m c main_v3 : S2048x1.Idx → BitVec 32) = shapeCast S2048x1 (m ((c : Thread nD τ).loc main_arg2)) shapeCasts_S2048_S2048x1 := by
  show StableHlo.after hostOps0 (fun b => m (c, b)) (Proc.devRef .tc main_v3) = _
  after_results <;> rfl

theorem V_v4_eq (c : Dev nD) :
    (V m c main_v4 : S1x16384.Idx → BitVec 32) = shapeCast S1x16384 (m ((c : Thread nD τ).loc main_arg3)) shapeCasts_S16384_S1x16384 := by
  show StableHlo.after hostOps0 (fun b => m (c, b)) (Proc.devRef .tc main_v4) = _
  after_results <;> rfl

/-- Where each window's block sits at point t, decided over the grid. -/
theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- The four input blocks at point t, at their literal types. -/
abbrev qblk (c : Dev nD) (t : Fin cfg0.N) : Vec Idealize.ShloMosaic.Ideal S512x2048 .bf16 := iblk m c 0 t
abbrev sblk (c : Dev nD) (t : Fin cfg0.N) : Vec Idealize.ShloMosaic.Ideal S1024x2048 .bf16 := iblk m c 1 t
abbrev lblk (c : Dev nD) (t : Fin cfg0.N) : Vec Idealize.ShloMosaic.Ideal S512x1 .i32 := iblk m c 2 t
abbrev lsblk (c : Dev nD) (t : Fin cfg0.N) : Vec Idealize.ShloMosaic.Ideal S1x1024 .i32 := iblk m c 3 t

/-- Row r of the query block at point t is query row 512 (t / 16) + r. -/
theorem qblk_apply (c : Dev nD) (t : Fin cfg0.N) (r : Fin 512) (cc : Fin 2048) :
    qblk m c t (ix2 r cc) = Xg m c (row (t.val / 16) r) cc := by
  have hN : t.val < 64 := lt_of_lt_of_eq t.isLt (show cfg0.N = 64 from N_0)
  unfold qblk iblk
  rw [View.read_apply]
  show (V m c main_v0 : S2048x2048.Idx → EReal) _ = _
  rw [V_v0_apply]
  show m ((c : Thread nD τ).loc main_arg0) _ = m ((c : Thread nD τ).loc main_arg0) (ix2 (row (t.val / 16) r) cc)
  congr 1
  funext a
  apply Fin.ext
  match a with
  | ⟨0, _⟩ =>
    show win0_0.index t 0 * 512 + 1 * r.val = (512 * (t.val / 16) + r.val) % 2048
    rw [(idx0 t).1]; have := r.isLt; omega
  | ⟨1, _⟩ =>
    show win0_0.index t 1 * 2048 + 1 * cc.val = cc.val
    rw [(idx0 t).2]; omega

/-- Row k of the support block at point t is support row 1024 (t % 16) + k. -/
theorem sblk_apply (c : Dev nD) (t : Fin cfg0.N) (k : Fin 1024) (cc : Fin 2048) :
    sblk m c t (ix2 k cc) = Yg m c (col (t.val % 16) k) cc := by
  unfold sblk iblk
  rw [View.read_apply]
  show (V m c main_v2 : S16384x2048.Idx → EReal) _ = _
  rw [V_v2_apply]
  show shapeCast S16384x2048 (m ((c : Thread nD τ).loc main_arg1)) shapeCasts_S4096x4x2048_S16384x2048 _
    = shapeCast S16384x2048 (m ((c : Thread nD τ).loc main_arg1)) shapeCasts_S4096x4x2048_S16384x2048 (ix2 (col (t.val % 16) k) cc)
  congr 1
  funext a
  apply Fin.ext
  match a with
  | ⟨0, _⟩ =>
    show win0_1.index t 0 * 1024 + 1 * k.val = (1024 * (t.val % 16) + k.val) % 16384
    rw [(idx1 t).1]; have := k.isLt; omega
  | ⟨1, _⟩ =>
    show win0_1.index t 1 * 2048 + 1 * cc.val = cc.val
    rw [(idx1 t).2]; omega

/-- The column of reshaped query labels at row b is label b. -/
theorem V_v3_apply (c : Dev nD) (b : Fin 2048) (z : Fin 1) :
    (V m c main_v3 : S2048x1.Idx → BitVec 32) (ix2 b z) = labg m c b := by
  rw [V_v3_eq]
  exact shapeCast_apply _ shapeCasts_S2048_S2048x1 (ix2 b z) (ix1 b)
    (by rw [Shape.rowMajor_val_one, Shape.rowMajor_val_two]; show b.val = b.val * 1 + z.val; have := z.isLt; omega)

/-- The row of reshaped support labels at column n is label n. -/
theorem V_v4_apply (c : Dev nD) (z : Fin 1) (n : Fin 16384) :
    (V m c main_v4 : S1x16384.Idx → BitVec 32) (ix2 z n) = labsg m c n := by
  rw [V_v4_eq]
  exact shapeCast_apply _ shapeCasts_S16384_S1x16384 (ix2 z n) (ix1 n)
    (by rw [Shape.rowMajor_val_one, Shape.rowMajor_val_two]; show n.val = z.val * 16384 + n.val; have := z.isLt; omega)

/-- Entry r of the query-label block at point t is the label of query row 512 (t / 16) + r. -/
theorem lblk_apply (c : Dev nD) (t : Fin cfg0.N) (r : Fin 512) :
    lblk m c t (ix2 r 0) = labg m c (row (t.val / 16) r) := by
  have hN : t.val < 64 := lt_of_lt_of_eq t.isLt (show cfg0.N = 64 from N_0)
  unfold lblk iblk
  rw [View.read_apply]
  show (V m c main_v3 : S2048x1.Idx → BitVec 32) _ = _
  rw [← V_v3_apply m c (row (t.val / 16) r) 0]
  congr 1
  funext a
  apply Fin.ext
  match a with
  | ⟨0, _⟩ =>
    show win0_2.index t 0 * 512 + 1 * r.val = (512 * (t.val / 16) + r.val) % 2048
    rw [(idx2 t).1]; have := r.isLt; omega
  | ⟨1, _⟩ =>
    show win0_2.index t 1 * 1 + 1 * 0 = 0
    rw [(idx2 t).2]

/-- Entry k of the support-label block at point t is the label of support row 1024 (t % 16) + k. -/
theorem lsblk_apply (c : Dev nD) (t : Fin cfg0.N) (k : Fin 1024) :
    lsblk m c t (ix2 0 k) = labsg m c (col (t.val % 16) k) := by
  unfold lsblk iblk
  rw [View.read_apply]
  show (V m c main_v4 : S1x16384.Idx → BitVec 32) _ = _
  rw [← V_v4_apply m c 0 (col (t.val % 16) k)]
  congr 1
  funext a
  apply Fin.ext
  match a with
  | ⟨0, _⟩ =>
    show win0_3.index t 0 * 1 + 1 * 0 = 0
    rw [(idx3 t).1]
  | ⟨1, _⟩ =>
    show win0_3.index t 1 * 1024 + 1 * k.val = (1024 * (t.val % 16) + k.val) % 16384
    rw [(idx3 t).2]; have := k.isLt; omega

end Cert.KernelIdeal.Blocks

end
-- ==== Proof.KernelPayloads.lean ====
/-
  The arithmetic of one grid step, read at one index on the extended reals, in the vocabulary of the loss.

  One step meets a block of 512 query rows x_r and a block of 1024 support rows y_k (2048 features each) with their
  labels. At (r, k) the body forms e(r, k) = exp (⟨x_r, y_k⟩ · κ), with κ the inverse temperature; where the labels
  agree it keeps e(r, k) for the row's minimum and 0 for the row's sum, elsewhere +∞ and e(r, k). The row's running
  minimum is then the minimum so far against the least of the 1024 kept terms, and the running sum is the sum so far
  plus the 1024 terms. The first step starts the minimum at +∞ and the sum at 0; the last turns the two into the row's
  loss −log (pm / (pm + ns + ε) + ε).

  Each statement below reads one of these values at row r (and column k where there is one). The inner product is the
  block product into a zero accumulator, its contraction index renamed to the feature index; the label comparison
  reads a column and a row each broadcast over the block; the lane minimum and the lane sum are the fold of min and
  the sum over the 1024 columns of the row.
-/
import proofs.«181275_j84447646974570_1_alg».proof.Proof.Gen.KernelIdeal.Skeleton
import proofs.«181275_j84447646974570_1_alg».proof.Proof.LossSpec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx Cert.Loss

/-- The named inverse temperature denotes the rational 268435456 / 13421773 at the ideal values. -/
theorem invTemp_eq :
    Named.named (F := Ideal) Cert.KernelIdeal.κ "inv_temp" (φ := .f32) 0x41A00000#32 = invTemp :=
  IdealRules.named_const.ideal_named_scalar _ _ _ _ rfl

theorem pay1_eq {F : FTy → Type} [FloatOps F] [Named F] (v : FVec F S512x1 .f32) : k0_pay1 v = v := by
  unfold k0_pay1
  exact shapeCast_self v _

theorem pay3_apply (r : Fin 512) : k0_pay3 (F := Ideal) (ix2 r 0) = infW := by
  unfold k0_pay3
  exact congrFun (shapeCast_self _ _) _

theorem pay4_apply (r : Fin 512) : k0_pay4 (F := Ideal) (ix2 r 0) = zeroW := by
  unfold k0_pay4
  exact congrFun (shapeCast_self _ _) _

/-! ## The block product at an index -/

/-- The left operand's index at output index i and contraction index q keeps i's row … -/
theorem lhs_dot_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
/-- … and takes the contraction coordinate as its column. -/
theorem lhs_dot_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
/-- The right operand's index takes i's column as its row … -/
theorem rhs_dot_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
/-- … and the contraction coordinate as its column. -/
theorem rhs_dot_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- Into the zero accumulator the block product at (r, k) is the inner product of row r of the left block and
    row k of the right block over the 2048 features. -/
theorem matmul_zero_apply (x0 : FVec Ideal S512x2048 .bf16) (x1 : FVec Ideal S1024x2048 .bf16) (r : Fin 512) (k : Fin 1024) :
    matmul dot_S512x2048_S1024x2048_S512x1024_1_1_0_0_n_n none x0 x1 (constant (F := Ideal) S512x1024 .f32 0x00000000#32) (ix2 r k)
      = ∑ c : Fin 2048, x0 (ix2 r c) * x1 (ix2 k c) := by
  simp only [matmul]
  rw [Ideal.matmul_constant_zero_apply, ← Equiv.sum_comp (ValueIdx.contrEquiv1 dot_S512x2048_S1024x2048_S512x1024_1_1_0_0_n_n 2048 rfl rfl).symm]
  refine Finset.sum_congr rfl fun c _ => ?_
  have hc := ValueIdx.contrEquiv1_symm_val dot_S512x2048_S1024x2048_S512x1024_1_1_0_0_n_n 2048 rfl rfl c
  have el : dot_S512x2048_S1024x2048_S512x1024_1_1_0_0_n_n.lhsIdx (ix2 r k) ((ValueIdx.contrEquiv1 dot_S512x2048_S1024x2048_S512x1024_1_1_0_0_n_n 2048 rfl rfl).symm c) = ix2 r c := funext fun a => Fin.ext (by
    match a with
    | ⟨0, _⟩ => exact lhs_dot_0 _ _
    | ⟨1, _⟩ => exact (lhs_dot_1 _ _).trans hc)
  have er : dot_S512x2048_S1024x2048_S512x1024_1_1_0_0_n_n.rhsIdx (ix2 r k) ((ValueIdx.contrEquiv1 dot_S512x2048_S1024x2048_S512x1024_1_1_0_0_n_n 2048 rfl rfl).symm c) = ix2 k c := funext fun a => Fin.ext (by
    match a with
    | ⟨0, _⟩ => exact rhs_dot_0 _ _
    | ⟨1, _⟩ => exact (rhs_dot_1 _ _).trans hc)
  rw [el, er]

/-! ## The layout operations at an index -/

/-- A [512, 1] column broadcast to [512, 1024] reads, at (r, k), the column at row r. -/
theorem broadcastTo_col_apply {α : Type} (v : S512x1.Idx → α) (r : Fin 512) (k : Fin 1024) :
    broadcastTo S512x1024 v broadcasts_S512x1_S512x1024 (ix2 r k) = v (ix2 r 0) := by
  refine broadcastTo_apply v broadcasts_S512x1_S512x1024 (ix2 r k) (ix2 r 0) fun ax => ?_
  match ax with
  | ⟨0, _⟩ => rfl
  | ⟨1, _⟩ => rfl

/-- A [1, 1024] row broadcast to [512, 1024] reads, at (r, k), the row at column k. -/
theorem broadcastTo_row_apply {α : Type} (v : S1x1024.Idx → α) (r : Fin 512) (k : Fin 1024) :
    broadcastTo S512x1024 v broadcasts_S1x1024_S512x1024 (ix2 r k) = v (ix2 0 k) :=
  broadcastTo_1b_ab_apply v broadcasts_S1x1024_S512x1024 r k

/-- A [512] vector cast to a [512, 1] column reads, at (r, 0), the vector at r. -/
theorem shapeCast_col_apply {α : Type} (v : S512.Idx → α) (r : Fin 512) :
    shapeCast S512x1 v shapeCasts_S512_S512x1 (ix2 r 0) = v (ix1 r) :=
  shapeCast_apply v shapeCasts_S512_S512x1 _ _ (by
    rw [Shape.rowMajor_val_one, Shape.rowMajor_val_two]
    show r.val = r.val * 1 + 0
    omega)

/-! ## The two lane reductions at a row -/

/-- The source index over row r whose coordinate on the reduced axis is k is (r, k). -/
theorem lift_row (r : Fin 512) (k : Fin 1024) :
    reduces_S512x1024_S512.lift (ix1 r) k = ix2 r k :=
  funext fun a => Fin.ext (by
    match a with
    | ⟨0, _⟩ => rfl
    | ⟨1, _⟩ => rfl)

/-- The lane minimum of a [512, 1024] vector at row r: the least of the row's 1024 entries, from the word +∞. -/
theorem laneMin_apply (src : FVec Ideal S512x1024 .f32) (r : Fin 512) :
    multiReduction (F := Ideal) .minimumf [1] S512 src 0x7F800000#32 reduces_S512x1024_S512 (.inl rfl) rfl (ix1 r)
      = Finset.univ.fold min infW (fun k : Fin 1024 => src (ix2 r k)) := by
  refine (multiReduction_minimumf_eq_fold src 0x7F800000#32 reduces_S512x1024_S512 (.inl rfl) rfl (ix1 r)).trans ?_
  refine (reduces_S512x1024_S512.fold_filter_drop_single _ _ src (ix1 r)).trans ?_
  show Finset.univ.fold min infW (src ∘ reduces_S512x1024_S512.lift (ix1 r)) = _
  exact congrArg (Finset.univ.fold min infW) (funext fun k => congrArg src (lift_row r k))

/-- The lane sum of a [512, 1024] vector at row r: the sum of the row's 1024 entries. -/
theorem laneSum_apply (src : FVec Ideal S512x1024 .f32) (r : Fin 512) :
    multiReduction (F := Ideal) .add [1] S512 src 0x00000000#32 reduces_S512x1024_S512 (.inl rfl) rfl (ix1 r)
      = ∑ k : Fin 1024, src (ix2 r k) := by
  refine (Ideal.multiReduction_add_single src 0x00000000#32 reduces_S512x1024_S512 (.inl rfl) rfl (ix1 r)).trans ?_
  exact Finset.sum_congr rfl fun k _ => congrArg src (lift_row r k)

/-! ## The body's values at an index -/

/-- The exponentiated similarity of row r of the query block and row k of the support block. -/
theorem pay5_apply (x0 : Vec Ideal S512x2048 .bf16) (x1 : Vec Ideal S1024x2048 .bf16) (r : Fin 512) (k : Fin 1024) :
    k0_pay5 (F := Ideal) x0 x1 (ix2 r k)
      = esim invTemp (fun r c => x0 (ix2 r c)) (fun k c => x1 (ix2 k c)) r k := by
  unfold k0_pay5
  simp only [shapeCast_self]
  show Ideal.exp (matmul dot_S512x2048_S1024x2048_S512x1024_1_1_0_0_n_n none x0 x1 (constant (F := Ideal) S512x1024 .f32 0x00000000#32) (ix2 r k)
      * Named.named (F := Ideal) Cert.KernelIdeal.κ "inv_temp" (φ := .f32) 0x41A00000#32) = _
  rw [matmul_zero_apply, invTemp_eq]
  rfl

/-- Whether the label of query row r is the label of support row k. -/
theorem pay6_apply (x2 : Vec Ideal S512x1 .i32) (x3 : Vec Ideal S1x1024 .i32) (r : Fin 512) (k : Fin 1024) :
    k0_pay6 (F := Ideal) x2 x3 (ix2 r k) = IntOp.cmpi .eq (x2 (ix2 r 0)) (x3 (ix2 0 k)) := by
  unfold k0_pay6
  simp only [shapeCast_self]
  show IntOp.cmpi .eq (broadcastTo S512x1024 x2 broadcasts_S512x1_S512x1024 (ix2 r k))
      (broadcastTo S512x1024 x3 broadcasts_S1x1024_S512x1024 (ix2 r k)) = _
  rw [broadcastTo_col_apply, broadcastTo_row_apply]

/-- The running minimum after this block: the minimum so far against the least positive term of the block's row. -/
theorem pay7_apply (x0 : Vec Ideal S512x2048 .bf16) (x1 : Vec Ideal S1024x2048 .bf16) (x2 : Vec Ideal S512x1 .i32) (x3 : Vec Ideal S1x1024 .i32) (v22 : Vec Ideal S512x1 .f32) (r : Fin 512) :
    k0_pay7 (F := Ideal) x0 x1 x2 x3 v22 (ix2 r 0)
      = min (v22 (ix2 r 0)) (Finset.univ.fold min infW (posTerm (esim invTemp (fun r c => x0 (ix2 r c)) (fun k c => x1 (ix2 k c))) (fun r => x2 (ix2 r 0)) (fun k => x3 (ix2 0 k)) r)) := by
  unfold k0_pay7
  simp only [shapeCast_self]
  show min (v22 (ix2 r 0)) (shapeCast S512x1 (multiReduction (F := Ideal) .minimumf [1] S512
      (select (k0_pay6 (F := Ideal) x2 x3) (k0_pay5 (F := Ideal) x0 x1) (broadcast S512x1024 infW))
      0x7F800000#32 reduces_S512x1024_S512 (.inl rfl) rfl) shapeCasts_S512_S512x1 (ix2 r 0)) = _
  rw [shapeCast_col_apply, laneMin_apply]
  refine congrArg (min _) (congrArg (Finset.univ.fold min infW) (funext fun k => ?_))
  show Scalar.select (k0_pay6 (F := Ideal) x2 x3 (ix2 r k)) (k0_pay5 (F := Ideal) x0 x1 (ix2 r k)) infW = _
  rw [pay6_apply, pay5_apply]
  rfl

/-- The running sum after this block: the sum so far plus the negative terms of the block's row. -/
theorem pay8_apply (x0 : Vec Ideal S512x2048 .bf16) (x1 : Vec Ideal S1024x2048 .bf16) (x2 : Vec Ideal S512x1 .i32) (x3 : Vec Ideal S1x1024 .i32) (v29 : Vec Ideal S512x1 .f32) (r : Fin 512) :
    k0_pay8 (F := Ideal) x0 x1 x2 x3 v29 (ix2 r 0)
      = v29 (ix2 r 0) + ∑ k : Fin 1024, negTerm (esim invTemp (fun r c => x0 (ix2 r c)) (fun k c => x1 (ix2 k c))) (fun r => x2 (ix2 r 0)) (fun k => x3 (ix2 0 k)) r k := by
  unfold k0_pay8
  show v29 (ix2 r 0) + shapeCast S512x1 (multiReduction (F := Ideal) .add [1] S512
      (select (k0_pay6 (F := Ideal) x2 x3) (broadcast S512x1024 zeroW) (k0_pay5 (F := Ideal) x0 x1))
      0x00000000#32 reduces_S512x1024_S512 (.inl rfl) rfl) shapeCasts_S512_S512x1 (ix2 r 0) = _
  rw [shapeCast_col_apply, laneSum_apply]
  refine congrArg (v29 (ix2 r 0) + ·) (Finset.sum_congr rfl fun k _ => ?_)
  show Scalar.select (k0_pay6 (F := Ideal) x2 x3 (ix2 r k)) zeroW (k0_pay5 (F := Ideal) x0 x1 (ix2 r k)) = _
  rw [pay6_apply, pay5_apply]
  rfl

/-- The last step: a row's loss from its minimum and its sum. -/
theorem pay2_apply (v39 v40 : Vec Ideal S512x1 .f32) (r : Fin 512) :
    k0_pay2 (F := Ideal) v39 v40 (ix2 r 0) = rowLoss (v39 (ix2 r 0)) (v40 (ix2 r 0)) := by
  unfold k0_pay2
  show zeroW - Ideal.log (Ideal.div (v39 (ix2 r 0)) (v39 (ix2 r 0) + v40 (ix2 r 0) + epsW) + epsW) = _
  rw [show zeroW = (0 : EReal) from Ideal.ofBits_zero_f32, zero_sub]
  rfl

end Cert.KernelIdeal.Pay

end
-- ==== Proof.LossChain.lean ====
/-
  The blocked running minimum and running sum over sixteen column blocks of 1024 agree with the plain
  minimum and the plain sum over all 16384 columns.

  Only order and monoid facts of the extended reals are used: min is the meet of a linear order (so a
  value is determined by its lower bounds), and addition is associative and commutative (so a finite sum
  may be split along any partition of its index set).
-/
import proofs.«181275_j84447646974570_1_alg».proof.Proof.LossSpec
import Mathlib.Data.EReal.Basic
import Mathlib.Data.Finset.Fold
import Mathlib.Data.Finset.Filter
import Mathlib.Data.Fintype.Basic
import Mathlib.Algebra.BigOperators.Group.Finset.Basic
import Mathlib.Order.Basic

noncomputable section

open scoped BigOperators

namespace Cert.Loss

/-- For the sixteen blocks j < 16 nothing wraps: the value of column k of block j is 1024 * j + k. -/
theorem col_val (j : ℕ) (hj : j < 16) (k : Fin 1024) : (col j k).val = 1024 * j + k.val := by
  show (1024 * j + k.val) % 16384 = 1024 * j + k.val
  have := k.isLt
  exact Nat.mod_eq_of_lt (by omega)

/-- A property holds on every column of block j exactly when it holds on every index n with
1024 * j ≤ n < 1024 * (j + 1): such an n is column n - 1024 * j of block j. -/
theorem forall_col_iff (j : ℕ) (hj : j < 16) (P : Fin 16384 → Prop) :
    (∀ k : Fin 1024, P (col j k)) ↔
      ∀ n : Fin 16384, 1024 * j ≤ n.val → n.val < 1024 * (j + 1) → P n := by
  constructor
  · intro h n h1 h2
    have hk : n.val - 1024 * j < 1024 := by omega
    have hn : col j ⟨n.val - 1024 * j, hk⟩ = n := by
      apply Fin.ext
      rw [col_val j hj]
      show 1024 * j + (n.val - 1024 * j) = n.val
      omega
    rw [← hn]
    exact h _
  · intro h k
    apply h
    · rw [col_val j hj]; omega
    · rw [col_val j hj]; have := k.isLt; omega

/-- The lower bounds of one block's minimum (started at a): the lower bounds of a that are below every
term of the block. -/
theorem le_blockMin_iff (a : EReal) (f : Fin 16384 → EReal) (j : ℕ) (hj : j < 16) (x : EReal) :
    x ≤ (Finset.univ.fold min a fun k : Fin 1024 => f (col j k)) ↔
      x ≤ a ∧ ∀ n : Fin 16384, 1024 * j ≤ n.val → n.val < 1024 * (j + 1) → x ≤ f n := by
  rw [Finset.le_fold_min, ← forall_col_iff j hj (fun n => x ≤ f n)]
  simp

/-- The lower bounds of the running minimum after block j: the lower bounds of the start a that are
below every term with index under 1024 * (j + 1). -/
theorem le_minChain_iff (a : EReal) (f : Fin 16384 → EReal) :
    ∀ (j : ℕ), j < 16 → ∀ x : EReal,
      x ≤ minChain a f j ↔ x ≤ a ∧ ∀ n : Fin 16384, n.val < 1024 * (j + 1) → x ≤ f n
  | 0, h, x => by
    rw [minChain, le_min_iff, le_blockMin_iff a f 0 h]
    constructor
    · rintro ⟨ha, -, hf⟩
      exact ⟨ha, fun n hn => hf n (by omega) hn⟩
    · rintro ⟨ha, hf⟩
      exact ⟨ha, ha, fun n _ hn => hf n hn⟩
  | j + 1, h, x => by
    rw [minChain, le_min_iff, le_blockMin_iff a f (j + 1) h,
      le_minChain_iff a f j (Nat.lt_of_succ_lt h) x]
    constructor
    · rintro ⟨⟨ha, hlo⟩, -, hhi⟩
      refine ⟨ha, fun n hn => ?_⟩
      by_cases hc : n.val < 1024 * (j + 1)
      · exact hlo n hc
      · exact hhi n (by omega) hn
    · rintro ⟨ha, hf⟩
      exact ⟨⟨ha, fun n hn => hf n (by omega)⟩, ha, fun n _ hn => hf n hn⟩

/-- After the last block the running minimum is the minimum of all 16384 terms from the start a: the two
have the same lower bounds. -/
theorem minChain_last (a : EReal) (f : Fin 16384 → EReal) :
    minChain a f 15 = Finset.univ.fold min a f := by
  apply eq_of_forall_le_iff
  intro x
  rw [le_minChain_iff a f 15 (by decide), Finset.le_fold_min]
  constructor
  · rintro ⟨ha, hf⟩
    exact ⟨ha, fun n _ => hf n (by have := n.isLt; omega)⟩
  · rintro ⟨ha, hf⟩
    exact ⟨ha, fun n _ => hf n (Finset.mem_univ n)⟩

/-- One block's sum is the sum of f over the indices n with 1024 * j ≤ n < 1024 * (j + 1): the block's
columns enumerate exactly those indices, each once. -/
theorem blockSum_eq (f : Fin 16384 → EReal) (j : ℕ) (hj : j < 16) :
    (∑ k : Fin 1024, f (col j k)) =
      ∑ n ∈ Finset.univ.filter (fun n : Fin 16384 => 1024 * j ≤ n.val ∧ n.val < 1024 * (j + 1)), f n := by
  refine Finset.sum_nbij' (fun k => col j k)
    (fun n => ⟨n.val % 1024, Nat.mod_lt _ (by decide)⟩) ?_ ?_ ?_ ?_ ?_
  · intro k _
    rw [Finset.mem_filter]
    refine ⟨Finset.mem_univ _, ?_, ?_⟩
    · rw [col_val j hj]; omega
    · rw [col_val j hj]; have := k.isLt; omega
  · intro n _
    exact Finset.mem_univ _
  · intro k _
    apply Fin.ext
    show (col j k).val % 1024 = k.val
    rw [col_val j hj]
    have := k.isLt
    omega
  · intro n hn
    rw [Finset.mem_filter] at hn
    obtain ⟨-, h1, h2⟩ := hn
    apply Fin.ext
    rw [col_val j hj]
    show 1024 * j + n.val % 1024 = n.val
    omega
  · intro k _
    rfl

/-- The indices under 1024 * (j + 2) are those under 1024 * (j + 1) together with block j + 1, and the
two parts do not meet; so the sum over the former splits. -/
theorem sum_below_succ (f : Fin 16384 → EReal) (j : ℕ) :
    (∑ n ∈ Finset.univ.filter (fun n : Fin 16384 => n.val < 1024 * (j + 1 + 1)), f n) =
      (∑ n ∈ Finset.univ.filter (fun n : Fin 16384 => n.val < 1024 * (j + 1)), f n) +
        ∑ n ∈ Finset.univ.filter
          (fun n : Fin 16384 => 1024 * (j + 1) ≤ n.val ∧ n.val < 1024 * (j + 1 + 1)), f n := by
  rw [← Finset.sum_union]
  · apply Finset.sum_congr _ (fun _ _ => rfl)
    ext n
    simp only [Finset.mem_filter, Finset.mem_univ, true_and, Finset.mem_union]
    omega
  · rw [Finset.disjoint_filter]
    intro n _ h1 h2
    omega

/-- The running sum after block j is the start z plus the sum of the terms with index under
1024 * (j + 1). -/
theorem sumChain_eq (z : EReal) (f : Fin 16384 → EReal) :
    ∀ (j : ℕ), j < 16 →
      sumChain z f j =
        z + ∑ n ∈ Finset.univ.filter (fun n : Fin 16384 => n.val < 1024 * (j + 1)), f n
  | 0, h => by
    have hS : Finset.univ.filter (fun n : Fin 16384 => 1024 * 0 ≤ n.val ∧ n.val < 1024 * (0 + 1)) =
        Finset.univ.filter (fun n : Fin 16384 => n.val < 1024 * (0 + 1)) := by
      ext n
      simp only [Finset.mem_filter, Finset.mem_univ, true_and]
      omega
    rw [sumChain, blockSum_eq f 0 h, hS]
  | j + 1, h => by
    rw [sumChain, sumChain_eq z f j (Nat.lt_of_succ_lt h), blockSum_eq f (j + 1) h, sum_below_succ,
      add_assoc]

/-- After the last block the running sum is the start z plus the sum of all 16384 terms. -/
theorem sumChain_last (z : EReal) (f : Fin 16384 → EReal) :
    sumChain z f 15 = z + ∑ n : Fin 16384, f n := by
  have hS : Finset.univ.filter (fun n : Fin 16384 => n.val < 1024 * (15 + 1)) = Finset.univ := by
    ext n
    simp only [Finset.mem_filter, Finset.mem_univ, true_and, iff_true]
    have := n.isLt
    omega
  rw [sumChain_eq z f 15 (by decide), hS]

end Cert.Loss

end
-- ==== Proof.KernelCarry.lean ====
/-
  What the two carried buffers hold after each grid point, and what the last column block of a row block stores:
  after column block j of row block i, row r of the first buffer holds the running minimum, and row r of the second
  the running sum, of query row 512 i + r over the support columns seen so far; the output block is the row loss
  of the two after the sixteenth block.
-/
import proofs.«181275_j84447646974570_1_alg».proof.Proof.KernelPieces
import proofs.«181275_j84447646974570_1_alg».proof.Proof.KernelBlocks
import proofs.«181275_j84447646974570_1_alg».proof.Proof.KernelPayloads
import proofs.«181275_j84447646974570_1_alg».proof.Proof.LossChain

noncomputable section

open scoped BigOperators

namespace Cert.KernelIdeal.Carry

open Cert.KernelIdeal Cert.KernelIdeal.Gen Idealize.ShloMosaic Idealize.ShloMosaic.TcCoe Idealize.SL.Sem
open Idealize.ShloMosaic.ValueIdx Cert.Loss Cert.KernelIdeal.Blocks Cert.KernelIdeal.Pay Cert.KernelIdeal.Pieces

variable (m : (ℓ : Loc nD τ sig) → Buf (Elt Idealize.ShloMosaic.Ideal) ℓ)

/-- The exponentiated similarities of the whole arrays. -/
abbrev E (c : Dev nD) : Fin 2048 → Fin 16384 → EReal := esim invTemp (Xg m c) (Yg m c)
/-- Query row b's 16384 terms under the minimum, and under the sum. -/
abbrev posRow (c : Dev nD) (b : Fin 2048) : Fin 16384 → EReal := posTerm (E m c) (labg m c) (labsg m c) b
abbrev negRow (c : Dev nD) (b : Fin 2048) : Fin 16384 → EReal := negTerm (E m c) (labg m c) (labsg m c) b

/-- The same from the blocks point t sees. -/
abbrev Eblk (c : Dev nD) (t : Fin cfg0.N) : Fin 512 → Fin 1024 → EReal :=
  esim invTemp (fun r cc => qblk m c t (ix2 r cc)) (fun k cc => sblk m c t (ix2 k cc))
abbrev posBlk (c : Dev nD) (t : Fin cfg0.N) (r : Fin 512) : Fin 1024 → EReal :=
  posTerm (Eblk m c t) (fun r => lblk m c t (ix2 r 0)) (fun k => lsblk m c t (ix2 0 k)) r
abbrev negBlk (c : Dev nD) (t : Fin cfg0.N) (r : Fin 512) : Fin 1024 → EReal :=
  negTerm (Eblk m c t) (fun r => lblk m c t (ix2 r 0)) (fun k => lsblk m c t (ix2 0 k)) r

/-- At point t of row block i and column block j, the block's term (r, k) is the arrays' term (512 i + r, 1024 j + k). -/
theorem blk_pos (c : Dev nD) (t : Fin cfg0.N) (i j : ℕ) (hi : t.val / 16 = i) (hj : t.val % 16 = j) (r : Fin 512) :
    posBlk m c t r = fun k => posRow m c (row i r) (col j k) := by
  subst hi hj
  funext k
  simp only [posTerm, esim, sim, qblk_apply, sblk_apply, lblk_apply, lsblk_apply]

theorem blk_neg (c : Dev nD) (t : Fin cfg0.N) (i j : ℕ) (hi : t.val / 16 = i) (hj : t.val % 16 = j) (r : Fin 512) :
    negBlk m c t r = fun k => negRow m c (row i r) (col j k) := by
  subst hi hj
  funext k
  simp only [negTerm, esim, sim, qblk_apply, sblk_apply, lblk_apply, lsblk_apply]

/-- The running minimum and sum, one block at a time (their defining equations). -/
theorem minChain_zero (a : EReal) (f : Fin 16384 → EReal) :
    minChain a f 0 = min a (Finset.univ.fold min a fun k : Fin 1024 => f (col 0 k)) := rfl
theorem minChain_succ (a : EReal) (f : Fin 16384 → EReal) (j : ℕ) :
    minChain a f (j + 1) = min (minChain a f j) (Finset.univ.fold min a fun k : Fin 1024 => f (col (j + 1) k)) := rfl
theorem sumChain_zero (z : EReal) (f : Fin 16384 → EReal) :
    sumChain z f 0 = z + ∑ k : Fin 1024, f (col 0 k) := rfl
theorem sumChain_succ (z : EReal) (f : Fin 16384 → EReal) (j : ℕ) :
    sumChain z f (j + 1) = sumChain z f j + ∑ k : Fin 1024, f (col (j + 1) k) := rfl

/-- The first column block of a row block: both buffers are reset, then take the block's minimum and sum. -/
theorem stepA (c : Dev nD) (t : Fin cfg0.N) (i : ℕ) (hi : t.val / 16 = i) (h0 : t.val % 16 = 0) (r : Fin 512) :
    (outsAt0 m c t.val t.isLt).2.1 (ix2 r 0) = minChain infW (posRow m c (row i r)) 0
    ∧ (outsAt0 m c t.val t.isLt).2.2 (ix2 r 0) = sumChain zeroW (negRow m c (row i r)) 0 := by
  have h1 : ¬t.val % 16 = 15 := by omega
  have p1 := congrFun (sA0 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (qblk m c t) (sblk m c t) (lblk m c t) (lsblk m c t)) (ix2 r 0)
  have p2 := pay7_apply (qblk m c t) (sblk m c t) (lblk m c t) (lsblk m c t) (k0_pay3 (F := Idealize.ShloMosaic.Ideal)) r
  have p3 := p1.trans p2
  have q1 := congrFun ((sA1 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (qblk m c t) (sblk m c t) (lblk m c t) (lsblk m c t)).trans (pay1_eq _)) (ix2 r 0)
  have q2 := pay8_apply (qblk m c t) (sblk m c t) (lblk m c t) (lsblk m c t) (k0_pay4 (F := Idealize.ShloMosaic.Ideal)) r
  have q3 := q1.trans q2
  rw [outsAt0_A m c t h0 h1, minChain_zero, sumChain_zero]
  dsimp only
  constructor
  · refine p3.trans ?_
    rw [pay3_apply]
    exact congrArg (fun f : Fin 1024 → EReal => min infW (Finset.univ.fold min infW f)) (blk_pos m c t i 0 hi h0 r)
  · refine q3.trans ?_
    rw [pay4_apply]
    exact congrArg (fun f : Fin 1024 → EReal => zeroW + ∑ k : Fin 1024, f k) (blk_neg m c t i 0 hi h0 r)

/-- A later column block: both buffers are updated from what the point before left. -/
theorem stepBC (c : Dev nD) (t : Fin cfg0.N) (i j : ℕ) (hi : t.val / 16 = i) (hj : t.val % 16 = j + 1) (r : Fin 512)
    (ih1 : (outsAt0 m c (t.val - 1) (Nat.lt_of_le_of_lt (Nat.sub_le _ _) t.isLt)).2.1 (ix2 r 0) = minChain infW (posRow m c (row i r)) j)
    (ih2 : (outsAt0 m c (t.val - 1) (Nat.lt_of_le_of_lt (Nat.sub_le _ _) t.isLt)).2.2 (ix2 r 0) = sumChain zeroW (negRow m c (row i r)) j) :
    (outsAt0 m c t.val t.isLt).2.1 (ix2 r 0) = minChain infW (posRow m c (row i r)) (j + 1)
    ∧ (outsAt0 m c t.val t.isLt).2.2 (ix2 r 0) = sumChain zeroW (negRow m c (row i r)) (j + 1) := by
  have h0 : ¬t.val % 16 = 0 := by omega
  have p2 := pay7_apply (qblk m c t) (sblk m c t) (lblk m c t) (lsblk m c t) (outsAt0 m c (t.val - 1) (Nat.lt_of_le_of_lt (Nat.sub_le _ _) t.isLt)).2.1 r
  have q2 := pay8_apply (qblk m c t) (sblk m c t) (lblk m c t) (lsblk m c t) (outsAt0 m c (t.val - 1) (Nat.lt_of_le_of_lt (Nat.sub_le _ _) t.isLt)).2.2 r
  rw [ih1] at p2
  rw [ih2] at q2
  have p4 := p2.trans (congrArg (fun f : Fin 1024 → EReal => min (minChain infW (posRow m c (row i r)) j) (Finset.univ.fold min infW f)) (blk_pos m c t i (j + 1) hi hj r))
  have q4 := q2.trans (congrArg (fun f : Fin 1024 → EReal => sumChain zeroW (negRow m c (row i r)) j + ∑ k : Fin 1024, f k) (blk_neg m c t i (j + 1) hi hj r))
  by_cases h1 : t.val % 16 = 15
  · have p1 := congrFun (sC0 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (qblk m c t) (sblk m c t) (lblk m c t) (lsblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)
    have q1 := congrFun ((sC1 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (qblk m c t) (sblk m c t) (lblk m c t) (lsblk m c t) (outsAt0 m c (t.val - 1) (Nat.lt_of_le_of_lt (Nat.sub_le _ _) t.isLt)).2.1 (outsAt0 m c (t.val - 1) (Nat.lt_of_le_of_lt (Nat.sub_le _ _) t.isLt)).2.2).trans (pay1_eq _)) (ix2 r 0)
    have p5 := p1.trans p4
    have q5 := q1.trans q4
    rw [outsAt0_C m c t h0 h1, minChain_succ, sumChain_succ]
    dsimp only
    exact ⟨p5, q5⟩
  · have p1 := congrFun (sB0 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (qblk m c t) (sblk m c t) (lblk m c t) (lsblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)
    have q1 := congrFun ((sB1 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (qblk m c t) (sblk m c t) (lblk m c t) (lsblk m c t) (outsAt0 m c (t.val - 1) (Nat.lt_of_le_of_lt (Nat.sub_le _ _) t.isLt)).2.1 (outsAt0 m c (t.val - 1) (Nat.lt_of_le_of_lt (Nat.sub_le _ _) t.isLt)).2.2).trans (pay1_eq _)) (ix2 r 0)
    have p5 := p1.trans p4
    have q5 := q1.trans q4
    rw [outsAt0_B m c t h0 h1, minChain_succ, sumChain_succ]
    dsimp only
    exact ⟨p5, q5⟩

/-- After point n (row block n / 16, column block n % 16) the buffers hold the running minimum and the running sum. -/
theorem carried (c : Dev nD) : ∀ (n : ℕ) (h : n < cfg0.N) (r : Fin 512),
    (outsAt0 m c n h).2.1 (ix2 r 0) = minChain infW (posRow m c (row (n / 16) r)) (n % 16)
    ∧ (outsAt0 m c n h).2.2 (ix2 r 0) = sumChain zeroW (negRow m c (row (n / 16) r)) (n % 16)
  | 0, h, r => by
    have hs := stepA m c ⟨0, h⟩ 0 (Nat.zero_div 16) (Nat.zero_mod 16) r
    rw [Nat.zero_div, Nat.zero_mod]; exact hs
  | n + 1, h, r => by
    by_cases h0 : (n + 1) % 16 = 0
    · have hs := stepA m c ⟨n + 1, h⟩ ((n + 1) / 16) rfl h0 r
      rw [h0]; exact hs
    · have hN : n + 1 < 64 := lt_of_lt_of_eq h (show cfg0.N = 64 from N_0)
      obtain ⟨ih1, ih2⟩ := carried c n (Nat.lt_of_succ_lt h) r
      have e1 : n / 16 = (n + 1) / 16 := by omega
      have e2 : n % 16 = (n + 1) % 16 - 1 := by omega
      rw [e1, e2] at ih1 ih2
      have e3 : (n + 1) % 16 = ((n + 1) % 16 - 1) + 1 := by omega
      have hs := stepBC m c ⟨n + 1, h⟩ ((n + 1) / 16) ((n + 1) % 16 - 1) rfl e3 r ih1 ih2
      rw [← e3] at hs; exact hs

/-- The last column block of row block i stores, at row r, the loss of query row 512 i + r. -/
theorem outC (c : Dev nD) (t : Fin cfg0.N) (i : ℕ) (hi : t.val / 16 = i) (h1 : t.val % 16 = 15) (r : Fin 512) :
    (outsAt0 m c t.val t.isLt).1 (ix2 r 0)
      = rowLoss (rowMin (posRow m c (row i r))) (rowSum (negRow m c (row i r))) := by
  have h0 : ¬t.val % 16 = 0 := by omega
  obtain ⟨c1, c2⟩ := carried m c t.val t.isLt r
  rw [hi, h1] at c1 c2
  have p1 := congrFun (oC4 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (qblk m c t) (sblk m c t) (lblk m c t) (lsblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)
  have p2 := pay2_apply (k0_pay7 (F := Idealize.ShloMosaic.Ideal) (qblk m c t) (sblk m c t) (lblk m c t) (lsblk m c t) (outsAt0 m c (t.val - 1) (Nat.lt_of_le_of_lt (Nat.sub_le _ _) t.isLt)).2.1) (k0_pay1 (k0_pay8 (F := Idealize.ShloMosaic.Ideal) (qblk m c t) (sblk m c t) (lblk m c t) (lsblk m c t) (outsAt0 m c (t.val - 1) (Nat.lt_of_le_of_lt (Nat.sub_le _ _) t.isLt)).2.2)) r
  have p3 := p1.trans p2
  have s0 := congrFun (sC0 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (qblk m c t) (sblk m c t) (lblk m c t) (lsblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)
  have s1 := congrFun (sC1 (F := Idealize.ShloMosaic.Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (qblk m c t) (sblk m c t) (lblk m c t) (lsblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)
  rw [← s0, ← s1] at p3
  rw [rowMin, rowSum, ← minChain_last, ← sumChain_last, ← c1, ← c2, outsAt0_C m c t h0 h1]
  dsimp only
  exact p3

end Cert.KernelIdeal.Carry

end
-- ==== Proof.KernelFinal.lean ====
/-
  The kernel's result: the output array after the run holds, at row b, the loss of query row b; the two host
  operations after the kernel sum that column from 0 and divide by 2048, which is the mean of the row losses.
-/
import proofs.«181275_j84447646974570_1_alg».proof.Proof.KernelCarry
import Idealize.ShloMosaic.Lib.Pipeline.Value
import Idealize.ShloMosaic.Lib.StableHlo.Run
import Idealize.ShloMosaic.PureOps.Ideal.Laws
import Idealize.ShloMosaic.Lib.ValueIdx

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.Loss Cert.KernelIdeal.Blocks Cert.KernelIdeal.Carry
open Idealize.ShloMosaic.Pipeline (Dat)

variable (m : (ℓ : Loc nD τ sig) → Buf (Elt Idealize.ShloMosaic.Ideal) ℓ) (ρ : Dev nD → PrngReg)

/-- Query row b's loss, from the whole arrays. -/
abbrev lossOf (c : Dev nD) (b : Fin 2048) : EReal := rowLoss (rowMin (posRow m c b)) (rowSum (negRow m c b))

/-- The column of the 2048 row losses: what the kernel's output array ends holding. -/
abbrev lossCol (c : Dev nD) : S2048x1.Idx → EReal := fun y => lossOf m c (y 0)

/-- Every entry of the output block the last column block of row block i stores is a row loss. -/
theorem out_col (c : Dev nD) (t : Fin cfg0.N) (i : ℕ) (hi : t.val / 16 = i) (h1 : t.val % 16 = 15) (y : S512x1.Idx) :
    (outsAt0 m c t.val t.isLt).1 y = lossOf m c (row i (y 0)) := by
  have e : y = ix2 (y 0) 0 := by
    funext a
    match a with
    | ⟨0, _⟩ => rfl
    | ⟨1, _⟩ => exact Fin.ext (by have h : (y 1).val < 1 := (y 1).isLt; show (y 1).val = 0; omega)
  rw [e]
  exact outC m c t i hi h1 (y 0)

/-- What a writing point writes back is its block of the loss column. -/
theorem flushed_eq (c : Dev nD) (t : Fin cfg0.N) (hf : (cfg0.win 4).flush t = true) :
    (dats m 0 c).flushed 4 t = ((cfg0.win 4).blk t).view.read (Elt Idealize.ShloMosaic.Ideal) (lossCol m c) := by
  have h15 : t.val % 16 = 15 := (flush0_4 t).mp hf
  have hN : t.val < 64 := lt_of_lt_of_eq t.isLt (show cfg0.N = 64 from N_0)
  show (cfg0.win 4).cut (grid0.coords t) ((dats m 0 c).after 4 t) = _
  rw [after0_4]
  funext y
  have hy : (y 0).val < 512 := (y 0).isLt
  show (outsAt0 m c t.val t.isLt).1 ((cfg0.win 4).xinj (grid0.coords t) y) = lossCol m c (((cfg0.win 4).blk t).view.emb y)
  rw [out_col m c t (t.val / 16) rfl h15]
  have e : row (t.val / 16) ((cfg0.win 4).xinj (grid0.coords t) y 0) = ((cfg0.win 4).blk t).view.emb y 0 := Fin.ext (by
    show (512 * (t.val / 16) + (y 0).val) % 2048 = win0_4.index t 0 * 512 + 1 * (y 0).val
    rw [(idx4 t).1]; omega)
  show lossOf m c (row (t.val / 16) ((cfg0.win 4).xinj (grid0.coords t) y 0)) = lossOf m c (((cfg0.win 4).blk t).view.emb y 0)
  rw [e]

/-- Row b lies in the block written by the last column block of row block b / 512. -/
theorem cover (i : S2048x1.Idx) : ∃ t : Fin cfg0.N, (cfg0.win 4).flush t = true ∧ i ∈ ((cfg0.win 4).blk t).view.set := by
  have hi0 : (i 0).val < 2048 := (i 0).isLt
  have hi1 : (i 1).val < 1 := (i 1).isLt
  have hN : cfg0.N = 64 := N_0
  obtain ⟨t, ht⟩ : ∃ t : Fin cfg0.N, t.val = 16 * ((i 0).val / 512) + 15 := ⟨⟨16 * ((i 0).val / 512) + 15, by omega⟩, rfl⟩
  refine ⟨t, (flush0_4 t).mpr (by omega), ?_⟩
  show i ∈ ((View.whole main_v5).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(idx4 t).1]
    omega
  | ⟨1, _⟩ =>
    show win0_4.index t 1 * 1 ≤ (i 1).val ∧ (i 1).val < win0_4.index t 1 * 1 + 1
    rw [(idx4 t).2]
    omega

/-- After the run the output array is the loss column. -/
theorem final (c : Dev nD) : (dats m 0 c).arrAt 4 cfg0.N = lossCol m c :=
  (dats m 0 c).arrAt_eq_of_cover 4 (lossCol m c) (flushed_eq m c) cover

/-- The sum of the loss column over its 2048 × 1 indices is the sum over the rows. -/
theorem sum_lossCol (c : Dev nD) : ∑ y : S2048x1.Idx, lossCol m c y = ∑ b : Fin 2048, lossOf m c b := by
  rw [sum_idx2]
  refine Finset.sum_congr rfl fun b _ => ?_
  rw [Fin.sum_univ_one]

/-- The program's result after the two closing host operations: the mean of the row losses. -/
theorem tail_eq (c : Dev nD) :
    Pipeline.afterTail₀ cfgs (dats m) 0 (V0 m) [hostOps1] c main_v7
      = fun _ => total invTemp (Xg m c) (Yg m c) (labg m c) (labsg m c) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v5) = lossCol m c :=
    (Pipeline.withArrays_arr spec0 launch0.win.arr_inj c _ _ 4).trans (final m c)
  rw [hA]
  funext z
  show FloatOps.hostDivf (Host.reduceAdd (lossCol m c) (constant (F := Idealize.ShloMosaic.Ideal) S_ .f32 0#32) reducesTo_S2048x1_S_d0_1 h_S_ z) (constant (F := Idealize.ShloMosaic.Ideal) S_ .f32 1157627904#32 z) = _
  simp only [Host.reduceAdd, Ideal.hostReduceAdd_def, Ideal.hostDivf_def]
  rw [Ideal.hostReduceAdd_total reducesTo_S2048x1_S_d0_1 (fun b => b.elim0), sum_lossCol]
  show Ideal.div (zeroW + ∑ b : Fin 2048, lossOf m c b) rowsW
    = meanRows (lossRow invTemp (Xg m c) (Yg m c) (labg m c) (labsg m c))
  rfl

/-- The kernel's run, read: the result at the mean row loss of the argument arrays, the arguments unchanged. -/
theorem run : θ_run defs (onTc (τ := τ) (main (F := Idealize.ShloMosaic.Ideal))) ⟨m, fun _ => 0, ρ⟩ fun r => ∀ c : Dev nD,
      r.2.mem ((c.tc : Thread nD τ).loc main_v7) = (fun _ => total invTemp (Xg m c) (Yg m c) (labg m c) (labsg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefValue.lean ====
/-
  The reference program's result, read at the ideal instance (floats are extended reals), is the specification
  Cert.Loss.total of LossSpec.lean at the inverse temperature 268435456/13421773.

  Stage by stage, each read at an index by its coordinates:
    the similarity entry (b, n) is the inner product of query row b and support row n (the support array as the
    reshape's shapeCast);
    its quotient by the word 0.05 (which denotes 13421773/268435456) is the product with the exact reciprocal,
    so the exponential is esim;
    the two selects under the label comparison are posTerm and negTerm;
    the minimum over axis 1 from the word +∞ is rowMin, the sum over axis 1 from the word 0 is rowSum;
    the pointwise tail -log (pm / (pm + ns + ε) + ε) is rowLoss;
    the sum over the rows from the word 0, divided by the word 2048, is meanRows.
  The words +∞, 0, ε and 2048 are never evaluated: the specification spells the same words.
-/
import proofs.«181275_j84447646974570_1_alg».proof.Proof.Gen.ReferenceIdeal.Read
import proofs.«181275_j84447646974570_1_alg».proof.Proof.LossSpec
import Idealize.ShloMosaic.Lib.ValueIdx
import Idealize.ShloMosaic.Lib.ValueIdxRank1
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx
open Cert.ReferenceIdeal.Read

/-! ## The one word that is evaluated: the temperature 0.05 -/

/-- The word 0x3D4CCCCD (0.05 rounded to f32) denotes the real 13421773 / 2^28. -/
theorem ofBits_temp : Ideal.ofBits .f32 0x3D4CCCCD#32 = ((13421773 / 268435456 : ℝ) : EReal) := by
  simp [Ideal.ofBits, Ideal.ieee, -EReal.coe_mul]; norm_num

/-- Dividing by that word is multiplying by its exact reciprocal, on every extended real. -/
theorem div_temp (x : EReal) : Ideal.div x (Ideal.ofBits .f32 0x3D4CCCCD#32) = x * Cert.Loss.invTemp := by
  rw [ofBits_temp, Ideal.div_coe (by norm_num : (13421773 / 268435456 : ℝ) ≠ 0)]
  have e : (1 / (13421773 / 268435456) : ℝ) = 268435456 / 13421773 := by norm_num
  rw [e]

/-! ## The four arguments by plain coordinates -/

variable (x0 : (⟨S2048x2048, .f32⟩ : BufTy).Contents (Elt Ideal)) (x1 : (⟨S4096x4x2048, .f32⟩ : BufTy).Contents (Elt Ideal))
  (x2 : (⟨S2048, .i32⟩ : BufTy).Contents (Elt Ideal)) (x3 : (⟨S16384, .i32⟩ : BufTy).Contents (Elt Ideal))

/-- The query rows. -/
abbrev qry : Fin 2048 → Fin 2048 → EReal := fun b c => x0 (ix2 b c)
/-- The support rows: the reshape of the [4096, 4, 2048] array to [16384, 2048], left as the cast. -/
abbrev sup : Fin 16384 → Fin 2048 → EReal :=
  fun n c => shapeCast S16384x2048 x1 shapeCasts_S4096x4x2048_S16384x2048 (ix2 n c)
/-- The query labels. -/
abbrev lab : Fin 2048 → BitVec 32 := fun b => x2 (ix1 b)
/-- The support labels. -/
abbrev labs : Fin 16384 → BitVec 32 := fun n => x3 (ix1 n)

/-- The exponentiated similarities of the specification at these arguments. -/
abbrev E : Fin 2048 → Fin 16384 → EReal := Cert.Loss.esim Cert.Loss.invTemp (qry x0) (sup x1)

/-! ## The index functions at coordinates -/

theorem lidx_ix2 (b : Fin 2048) (n : Fin 16384) (k : Fin 2048) : lidx_main_v1 (ix2 b n) k = ix2 b k :=
  funext fun a => Fin.ext (by match a with | ⟨0, _⟩ => rfl | ⟨1, _⟩ => rfl)

theorem ridx_ix2 (b : Fin 2048) (n : Fin 16384) (k : Fin 2048) : ridx_main_v1 (ix2 b n) k = ix2 n k :=
  funext fun a => Fin.ext (by match a with | ⟨0, _⟩ => rfl | ⟨1, _⟩ => rfl)

theorem idx_lab (b : Fin 2048) (n : Fin 16384) : idx_main_v5 (idx_main_v7 (ix2 b n)) = ix1 b :=
  funext fun a => Fin.ext (by match a with | ⟨0, _⟩ => rfl)

theorem idx_labs (b : Fin 2048) (n : Fin 16384) : idx_main_v6 (idx_main_v8 (ix2 b n)) = ix1 n :=
  funext fun a => Fin.ext (by match a with | ⟨0, _⟩ => rfl)

theorem idx_row (b : Fin 2048) (n : Fin 16384) : idx_main_v13 (ix1 b) n = ix2 b n :=
  funext fun a => Fin.ext (by match a with | ⟨0, _⟩ => rfl | ⟨1, _⟩ => rfl)

/-! ## The entries of the [2048, 16384] stages -/

/-- The dot product's entry (b, n) is the inner product of query row b and support row n. -/
theorem sim_entry (b : Fin 2048) (n : Fin 16384) :
    val_main_v1 (F := Ideal) x0 x1 (ix2 b n) = Cert.Loss.sim (qry x0) (sup x1) b n := by
  rw [val_main_v1_apply]
  unfold Cert.Loss.sim
  refine Finset.sum_congr rfl fun k _ => ?_
  rw [lidx_ix2, ridx_ix2]
  rfl

/-- The exponential of the quotient by the temperature word is esim at the exact reciprocal. -/
theorem esim_entry (b : Fin 2048) (n : Fin 16384) :
    val_main_v4 (F := Ideal) x0 x1 (ix2 b n) = E x0 x1 b n := by
  rw [val_main_v4_apply, val_main_v3_apply, val_main_v2_apply, val_main_cst_apply, sim_entry]
  simp only [Ideal.hostUnary_exp_def, Ideal.hostDivf_def, Ideal.ofBits_def]
  rw [div_temp]
  rfl

/-- The comparison's entry (b, n) compares query label b with support label n. -/
theorem cond_entry (b : Fin 2048) (n : Fin 16384) :
    val_main_v9 (F := Ideal) x2 x3 (ix2 b n) = IntOp.cmpi .eq (lab x2 b) (labs x3 n) := by
  rw [val_main_v9_apply, val_main_v7_apply, val_main_v5_apply, val_main_v8_apply, val_main_v6_apply, idx_lab, idx_labs]

/-- The first select: the value where the labels agree, the word +∞ elsewhere. -/
theorem pos_entry (b : Fin 2048) (n : Fin 16384) :
    val_main_v10 (F := Ideal) x0 x1 x2 x3 (ix2 b n) = Cert.Loss.posTerm (E x0 x1) (lab x2) (labs x3) b n := by
  rw [val_main_v10_apply, cond_entry, esim_entry, val_main_call0_v1_apply, val_main_call0_v0_apply, val_main_cst_0_apply]
  rfl

/-- The second select: the word 0 where the labels agree, the value elsewhere. -/
theorem neg_entry (b : Fin 2048) (n : Fin 16384) :
    val_main_v12 (F := Ideal) x0 x1 x2 x3 (ix2 b n) = Cert.Loss.negTerm (E x0 x1) (lab x2) (labs x3) b n := by
  rw [val_main_v12_apply, cond_entry, esim_entry, val_main_call1_v1_apply, val_main_call1_v0_apply, val_main_cst_2_apply]
  rfl

/-! ## The rows -/

/-- The minimum over axis 1 from the word +∞ is the fold of min over the row's 16384 terms. -/
theorem min_entry (b : Fin 2048) :
    val_main_v11 (F := Ideal) x0 x1 x2 x3 (ix1 b) = Cert.Loss.rowMin (Cert.Loss.posTerm (E x0 x1) (lab x2) (labs x3) b) := by
  have h : S2048x16384.Reduces [1] S2048 := by decide
  unfold val_main_v11
  rw [Host.reduce_eq_fold_single FloatOps.minimumf _ _ reducesTo_S2048x16384_S2048_d1 h h_S_ (ix1 b)]
  have hf : (val_main_v10 (F := Ideal) x0 x1 x2 x3 ∘ h.lift (ix1 b))
      = Cert.Loss.posTerm (E x0 x1) (lab x2) (labs x3) b := by
    funext n
    have e : h.lift (ix1 b) n = ix2 b n :=
      funext fun a => Fin.ext (by match a with | ⟨0, _⟩ => rfl | ⟨1, _⟩ => rfl)
    show val_main_v10 (F := Ideal) x0 x1 x2 x3 (h.lift (ix1 b) n) = _
    rw [e]
    exact pos_entry x0 x1 x2 x3 b n
  rw [hf]
  rfl

/-- The sum over axis 1 from the word 0 is the word plus the sum of the row's 16384 terms. -/
theorem sum_entry (b : Fin 2048) :
    val_main_v13 (F := Ideal) x0 x1 x2 x3 (ix1 b) = Cert.Loss.rowSum (Cert.Loss.negTerm (E x0 x1) (lab x2) (labs x3) b) := by
  rw [val_main_v13_apply, val_main_cst_3_apply, Ideal.ofBits_def]
  unfold Cert.Loss.rowSum
  refine congrArg (_ + ·) (Finset.sum_congr rfl fun n _ => ?_)
  rw [idx_row]
  exact neg_entry x0 x1 x2 x3 b n

/-- Row b of the negated logarithm is the specification's row loss. -/
theorem row_entry (b : Fin 2048) :
    val_main_v21 (F := Ideal) x0 x1 x2 x3 (ix1 b)
      = Cert.Loss.lossRow Cert.Loss.invTemp (qry x0) (sup x1) (lab x2) (labs x3) b := by
  rw [val_main_v21_apply, val_main_v20_apply, val_main_v19_apply, val_main_v17_apply, val_main_v16_apply, val_main_v14_apply,
    val_main_v15_apply, val_main_v18_apply, val_main_cst_4_apply, val_main_cst_5_apply, min_entry, sum_entry]
  simp only [Ideal.hostNegf_def, Ideal.negf_def, Ideal.hostUnary_log_def, Ideal.addf_def, Ideal.hostDivf_def, Ideal.ofBits_def]
  rfl

/-! ## The whole result -/

/-- The reference's result at the ideal instance is the specification's total. -/
theorem ref_total (x0 : (⟨S2048x2048, .f32⟩ : BufTy).Contents (Elt Ideal)) (x1 : (⟨S4096x4x2048, .f32⟩ : BufTy).Contents (Elt Ideal)) (x2 : (⟨S2048, .i32⟩ : BufTy).Contents (Elt Ideal)) (x3 : (⟨S16384, .i32⟩ : BufTy).Contents (Elt Ideal)) :
    Cert.ReferenceIdeal.Read.val_main_v23 (F := Ideal) x0 x1 x2 x3
      = fun _ => Cert.Loss.total Cert.Loss.invTemp (fun b c => x0 (ix2 b c))
          (fun n c => shapeCast S16384x2048 x1 shapeCasts_S4096x4x2048_S16384x2048 (ix2 n c))
          (fun b => x2 (ix1 b)) (fun n => x3 (ix1 n)) := by
  funext i
  rw [val_main_v23_apply, val_main_v22_apply, val_main_cst_7_apply, val_main_cst_6_apply]
  have hs : ∑ j : S2048.Idx, val_main_v21 (F := Ideal) x0 x1 x2 x3 j
      = ∑ b : Fin 2048, Cert.Loss.lossRow Cert.Loss.invTemp (qry x0) (sup x1) (lab x2) (labs x3) b := by
    rw [← Equiv.sum_comp (idxEquiv1 (n := 2048)).symm]
    exact Finset.sum_congr rfl fun b _ => row_entry x0 x1 x2 x3 b
  rw [hs]
  simp only [Ideal.hostDivf_def, Ideal.ofBits_def]
  rfl

end Cert.ReferenceIdeal.RefValue

end
-- ==== Proof.lean ====
/-
  The certificate of a row-masked contrastive loss.

  The kernel walks a 4 × 16 grid: row block i holds 512 query rows, column block j 1024 support rows. At each point
  it multiplies the two blocks, scales by the inverse temperature and exponentiates, and under the comparison of the
  rows' labels updates two carried columns: the least exponentiated similarity among the positives seen so far and
  the sum over the negatives seen so far. After the sixteenth column block it stores
  −log (pm / (pm + ns + ε) + ε) for its 512 rows; two host operations then take the mean of the 2048 values. The
  reference computes the whole 2048 × 16384 matrix at once, divides by the temperature, and reduces each row by one
  minimum and one sum.

  On the extended reals the two agree: a change of float format is the identity; the blocked matrix product is the
  same sum of products; a running minimum over blocks is the minimum and a running sum over blocks is the sum, because
  min and + are associative and commutative (no finiteness is used); 0 − x is −x; and the kernel's multiplication by
  its scale constant, named the exact reciprocal 268435456/13421773 of the reference's divisor 13421773/268435456
  (the f32 word 0.05), is the reference's division by that divisor.

  The three frames: the kernel's two are the generated frame certificates; the reference has no kernel, and its frame
  is its run with the result dropped.
-/
import proofs.«181275_j84447646974570_1_alg».proof.Defs
import proofs.«181275_j84447646974570_1_alg».proof.Proof.Gen.Kernel
import proofs.«181275_j84447646974570_1_alg».proof.Proof.Gen.Kernel.Skeleton
import proofs.«181275_j84447646974570_1_alg».proof.Proof.Gen.Kernel.Launch
import proofs.«181275_j84447646974570_1_alg».proof.Proof.Gen.Kernel.Points
import proofs.«181275_j84447646974570_1_alg».proof.Proof.Gen.Kernel.Frame
import proofs.«181275_j84447646974570_1_alg».proof.Proof.Gen.KernelIdeal
import proofs.«181275_j84447646974570_1_alg».proof.Proof.Gen.KernelIdeal.Skeleton
import proofs.«181275_j84447646974570_1_alg».proof.Proof.Gen.KernelIdeal.Launch
import proofs.«181275_j84447646974570_1_alg».proof.Proof.Gen.KernelIdeal.Points
import proofs.«181275_j84447646974570_1_alg».proof.Proof.Gen.KernelIdeal.Frame
import proofs.«181275_j84447646974570_1_alg».proof.Proof.Gen.ReferenceIdeal
import proofs.«181275_j84447646974570_1_alg».proof.Proof.Gen.Pre_finite_inputs
import proofs.«181275_j84447646974570_1_alg».proof.Proof.Gen.ReferenceIdeal.Run
import proofs.«181275_j84447646974570_1_alg».proof.Proof.Gen.ReferenceIdeal.Read
import proofs.«181275_j84447646974570_1_alg».proof.Proof.LossSpec
import proofs.«181275_j84447646974570_1_alg».proof.Proof.KernelFinal
import proofs.«181275_j84447646974570_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale constant 20.0 is named the exact reciprocal of the f32 word 0.05. -/
theorem preserves : Cert.preserves_Kernel_KernelIdeal :=
  IdealRules.named_const.statement Cert.KernelIdeal.κ "inv_temp" .f32 0x41A00000#32 ((268435456 / 13421773 : ℝ) : EReal) rfl

/-- Both programs end at the mean row loss of the same four arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_total,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
